-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S1x1024 : Shape := ⟨2, ![1, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  dot_S1x1024_S512x1024_S1x512_1_1_0_0_n_n_wf : DotDims.WF S1x1024 S512x1024 S1x512 [1] [1] [0] [0] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.RbfSpec.lean ====
/-
  The radial-basis layer as ONE function of its three argument arrays, index by index, on the extended reals.

  For a batch row `r`, a centre `n` and the feature axis `k` (1024 long):
    rowSq x r   = ∑ k, x[r,k] · x[r,k]            (the squared norm of row `r`)
    ctrSq c n   = ∑ k, c[n,k] · c[n,k]            (the squared norm of centre `n`)
    cross x c r n = ∑ k, x[r,k] · c[n,k]          (their inner product)
    rbf x c β (r,n) = exp( (-β[n]) · max( (rowSq x r + ctrSq c n) - 2 · cross x c r n , 0 ) )
  The squared distance is written in its expanded form, as both programs compute it; nothing here
  uses distributivity, so no finiteness of the entries is needed anywhere.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The batch array's shape, [16384, 1024]. -/
abbrev SX : Shape := ⟨2, ![16384, 1024]⟩
/-- The centres' shape, [4096, 1024]. -/
abbrev SC : Shape := ⟨2, ![4096, 1024]⟩
/-- The widths' shape, [4096]. -/
abbrev SB : Shape := ⟨1, ![4096]⟩
/-- The result's shape, [16384, 4096]. -/
abbrev SO : Shape := ⟨2, ![16384, 4096]⟩

/-- The literal `2.0`, kept as its word: both programs multiply by the same word. -/
abbrev two : EReal := Ideal.ofBits .f32 0x40000000#32

/-- The squared norm of batch row `r`. -/
def rowSq (x : SX.Idx → EReal) (r : Fin 16384) : EReal := ∑ k : Fin 1024, x (ix2 r k) * x (ix2 r k)
/-- The squared norm of centre `n`. -/
def ctrSq (c : SC.Idx → EReal) (n : Fin 4096) : EReal := ∑ k : Fin 1024, c (ix2 n k) * c (ix2 n k)
/-- The inner product of batch row `r` and centre `n`. -/
def cross (x : SX.Idx → EReal) (c : SC.Idx → EReal) (r : Fin 16384) (n : Fin 4096) : EReal :=
  ∑ k : Fin 1024, x (ix2 r k) * c (ix2 n k)

/-- One entry from its three sums and its width: `exp((-β) · max((a + b) - 2·p, 0))`. -/
def entry (a b p β : EReal) : EReal := Ideal.exp (-β * max (a + b - two * p) 0)

/-- The layer's result at `(r, n)`. -/
def rbf (x : SX.Idx → EReal) (c : SC.Idx → EReal) (β : SB.Idx → EReal) : SO.Idx → EReal := fun i =>
  entry (rowSq x (i 0)) (ctrSq c (i 1)) (cross x c (i 0) (i 1)) (β (ix1 (i 1)))

/-- A sum of products with the constant `1` on the left is the plain sum: how the kernel takes a centre's squared
    norm (a row of ones contracted against the squares). -/
theorem sum_one_mul {ι : Type*} [Fintype ι] (f : ι → EReal) : ∑ k : ι, (1 : EReal) * f k = ∑ k : ι, f k :=
  Finset.sum_congr rfl fun k _ => one_mul (f k)

/-- Subtracting from zero is negating, on every extended real: the kernel writes `-β` as `0 - β`. -/
theorem zero_sub_eq_neg (b : EReal) : (0 : EReal) - b = -b := by
  rw [sub_eq_add_neg, zero_add]

end Cert.Rbf

end
-- ==== Proof.RefValue.lean ====
/-
  The reference program's result, read one operation at a time, is the layer's function `rbf` of its three
  arguments. At `(r, n)` the reference computes
    exp( (-β[n]) · max( ((0 + ∑ k x[r,k]·x[r,k]) + (0 + ∑ k c[n,k]·c[n,k])) - 2 · ∑ k x[r,k]·cᵀ[k,n] , 0 ) ),
  the two row sums as host reductions from the initial value `0`, the inner products as one `dot_general` against
  the transposed centres. Reading every layout operation at the index (`(r, n)` goes to row `r` of `x`, row `n` of
  `c`, entry `n` of `β`), dropping the two `0 +` and reading the transpose back gives `rbf` term by term.
-/
import proofs.«147994_j56461640073237_1_alg».proof.Proof.Gen.ReferenceIdeal.Read
import proofs.«147994_j56461640073237_1_alg».proof.Proof.RbfSpec

noncomputable section

open scoped BigOperators

namespace Cert.Rbf.Reference

open Cert.ReferenceIdeal Cert.ReferenceIdeal.Read Idealize.ShloMosaic Idealize.ShloMosaic.ValueIdx Cert.Rbf

/-- The reference's last stage is `rbf`, index by index. -/
theorem stage_eq_rbf (x0 : (⟨S16384x1024, .f32⟩ : BufTy).Contents (Elt Ideal)) (x1 : (⟨S4096x1024, .f32⟩ : BufTy).Contents (Elt Ideal))
    (x2 : (⟨S4096, .f32⟩ : BufTy).Contents (Elt Ideal)) :
    val_main_v20 (F := Ideal) x0 x1 x2 = rbf x0 x1 x2 := by
  funext i
  obtain ⟨r, n, rfl⟩ : ∃ (r : Fin 16384) (n : Fin 4096), i = ix2 r n := ⟨i 0, i 1, eq_ix2 i⟩
  -- where each layout operation sends the index
  have eβ : idx_main_v16 (idx_main_v18 (ix2 r n)) = ix1 n :=
    funext fun a => Fin.ext (by match a with | ⟨0, _⟩ => rfl)
  have ex : ∀ k : Fin 1024, idx_main_v1 (idx_main_v2 (idx_main_v8 (ix2 r n))) k = ix2 r k := fun k =>
    funext fun a => Fin.ext (by match a with | ⟨0, _⟩ => rfl | ⟨1, _⟩ => rfl)
  have ec : ∀ k : Fin 1024, idx_main_v4 (idx_main_v7 (idx_main_v9 (ix2 r n))) k = ix2 n k := fun k =>
    funext fun a => Fin.ext (by match a with | ⟨0, _⟩ => rfl | ⟨1, _⟩ => rfl)
  have el : ∀ k : Fin 1024, lidx_main_v6 (ix2 r n) k = ix2 r k := fun k =>
    funext fun a => Fin.ext (by match a with | ⟨0, _⟩ => rfl | ⟨1, _⟩ => rfl)
  have er : ∀ k : Fin 1024, idx_main_v5 (ridx_main_v6 (ix2 r n) k) = ix2 n k := fun k =>
    funext fun a => Fin.ext (by match a with | ⟨0, _⟩ => rfl | ⟨1, _⟩ => rfl)
  rw [val_main_v20_apply, val_main_v19_apply, val_main_v18_apply, val_main_v17_apply, val_main_v16_apply,
    val_main_v15_apply, val_main_v14_apply, val_main_cst_2_apply, val_main_v13_apply, val_main_v12_apply,
    val_main_v11_apply, val_main_cst_1_apply, val_main_v10_apply, val_main_v9_apply, val_main_v8_apply,
    val_main_v7_apply, val_main_v6_apply, val_main_v4_apply, val_main_v2_apply, val_main_v1_apply,
    val_main_cst_apply, val_main_cst_0_apply]
  simp only [val_main_v5_apply, val_main_v3_apply, val_main_v0_apply, eβ, ex, ec, el, er,
    Ideal.hostUnary_exp_def, Ideal.mulf_def, Ideal.hostNegf_def, Ideal.negf_def, Ideal.maximumf_def, Ideal.subf_def,
    Ideal.addf_def, Ideal.ofBits_def, Ideal.ofBits_zero_f32, zero_add]
  rfl

end Cert.Rbf.Reference

end
-- ==== Proof.LibColumnLayout.lean ====
/-
  Two layout operations of a "keepdims" column, read at an index: a vector of row values `[a]` recast as a
  column `[a, 1]`, and a column `[a, 1]` broadcast along the lanes to `[a, b]`. Together they say that a
  per-row quantity (a row sum, a row maximum) spread over a block is, at `(p, c)`, the quantity of row `p`.
  Both are instances of the general "read at an index" lemmas for a shape cast (same row-major position)
  and a broadcast (unit axes read at `0`).
-/
import Idealize.ShloMosaic.Lib.Pipeline.Value
import Idealize.ShloMosaic.Lib.ValueIdx

noncomputable section

namespace Cert.ColumnLayout

open Idealize.ShloMosaic Idealize.ShloMosaic.ValueIdx

variable {α : Type}

/-- An `[a]` array cast to `[a, 1]` reads, at `(i, u)`, the operand at `i`, whatever the unit coordinate `u`:
    the row-major position of `(i, u)` in `[a, 1]` is `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout

end
-- ==== Proof.BodyValue.lean ====
/-
  The kernel body's one stored value, read at an entry `(p, q)` of its [1024, 512] block, as a function of the three
  loaded blocks: `v0` (1024 batch rows), `v1` (512 centres), `v20` (the 512 widths, one row).

    body(p, q) = exp( (0 - v20[0,q]) · max( (∑ k v0[p,k]·v0[p,k] + ∑ k 1·(v1[q,k]·v1[q,k])) - 2 · ∑ k v0[p,k]·v1[q,k] , 0 ) )

  The row sum of squares is a lane reduction recast as a column and spread along the lanes; the centres' squared norms
  come out of a contraction of a row of ones against the squares, spread along the rows; the inner products are one
  contraction on the shared feature axis. Format changes are the identity on extended reals. With `1 · y = y` and
  `0 - β = -β` this is `entry` of the three plain sums and the width.
-/
import proofs.«147994_j56461640073237_1_alg».proof.Proof.Gen.KernelIdeal.Skeleton
import proofs.«147994_j56461640073237_1_alg».proof.Proof.RbfSpec
import proofs.«147994_j56461640073237_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators

namespace Cert.Rbf.Body

open Cert.KernelIdeal Cert.KernelIdeal.Gen Idealize.ShloMosaic Idealize.ShloMosaic.ValueIdx Cert.Rbf Cert.ColumnLayout

/-! ## The two contractions' operand indices -/

/-- Row of ones against the squares: the left operand's row is the output's (unit) row. -/
theorem lhs_ones_0 (i : S1x512.Idx) (q : dot_S1x1024_S512x1024_S1x512_1_1_0_0_n_n.contr.Idx) :
    (dot_S1x1024_S512x1024_S1x512_1_1_0_0_n_n.lhsIdx i q 0).val = (i 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl
/-- … and its lane is the contraction position. -/
theorem lhs_ones_1 (i : S1x512.Idx) (q : dot_S1x1024_S512x1024_S1x512_1_1_0_0_n_n.contr.Idx) :
    (dot_S1x1024_S512x1024_S1x512_1_1_0_0_n_n.lhsIdx i q 1).val = (q ⟨0, by decide⟩).val :=
  dot_S1x1024_S512x1024_S1x512_1_1_0_0_n_n.lhsIdx_val_of_single rfl i q
/-- The right operand's row is the output's lane (the centre), -/
theorem rhs_ones_0 (i : S1x512.Idx) (q : dot_S1x1024_S512x1024_S1x512_1_1_0_0_n_n.contr.Idx) :
    (dot_S1x1024_S512x1024_S1x512_1_1_0_0_n_n.rhsIdx i q 0).val = (i 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl
/-- … and its lane the contraction position. -/
theorem rhs_ones_1 (i : S1x512.Idx) (q : dot_S1x1024_S512x1024_S1x512_1_1_0_0_n_n.contr.Idx) :
    (dot_S1x1024_S512x1024_S1x512_1_1_0_0_n_n.rhsIdx i q 1).val = (q ⟨0, by decide⟩).val :=
  dot_S1x1024_S512x1024_S1x512_1_1_0_0_n_n.rhsIdx_val_of_single rfl i q

/-- Batch rows against centres: the left operand's row is the output's row, -/
theorem lhs_cross_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- … its lane the contraction position; -/
theorem lhs_cross_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- the right operand's row is the output's lane (the centre), -/
theorem rhs_cross_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- … its lane the contraction position. -/
theorem rhs_cross_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-! ## The two contractions as sums over the feature axis -/

/-- A [1,1024] row against a [512,1024] block, into zero: at `(0, q)` the sum over `k` of `l[0,k] · r[q,k]`. -/
theorem ones_matmul_apply (l : FVec Ideal S1x1024 .bf16) (r : FVec Ideal S512x1024 .bf16) (q : Fin 512) :
    matmul dot_S1x1024_S512x1024_S1x512_1_1_0_0_n_n none l r (constant S1x512 .f32 0x00000000#32) (ix2 (0 : Fin 1) q)
      = ∑ k : Fin 1024, l (ix2 (0 : Fin 1) k) * r (ix2 q k) := by
  simp only [matmul]
  rw [Ideal.matmul_constant_zero_apply, ← Equiv.sum_comp (contrEquiv1 dot_S1x1024_S512x1024_S1x512_1_1_0_0_n_n 1024 rfl rfl).symm]
  refine Finset.sum_congr rfl fun k _ => ?_
  have hk := contrEquiv1_symm_val dot_S1x1024_S512x1024_S1x512_1_1_0_0_n_n 1024 rfl rfl k
  have el : dot_S1x1024_S512x1024_S1x512_1_1_0_0_n_n.lhsIdx (ix2 (0 : Fin 1) q) ((contrEquiv1 dot_S1x1024_S512x1024_S1x512_1_1_0_0_n_n 1024 rfl rfl).symm k) = ix2 (0 : Fin 1) k := funext fun a => Fin.ext (by
    match a with
    | ⟨0, _⟩ => exact lhs_ones_0 _ _
    | ⟨1, _⟩ => exact (lhs_ones_1 _ _).trans hk)
  have er : dot_S1x1024_S512x1024_S1x512_1_1_0_0_n_n.rhsIdx (ix2 (0 : Fin 1) q) ((contrEquiv1 dot_S1x1024_S512x1024_S1x512_1_1_0_0_n_n 1024 rfl rfl).symm k) = ix2 q k := funext fun a => Fin.ext (by
    match a with
    | ⟨0, _⟩ => exact rhs_ones_0 _ _
    | ⟨1, _⟩ => exact (rhs_ones_1 _ _).trans hk)
  rw [el, er]

/-- A [1024,1024] block against a [512,1024] block, into zero: at `(p, q)` the sum over `k` of `l[p,k] · r[q,k]`. -/
theorem cross_matmul_apply (l : FVec Ideal S1024x1024 .bf16) (r : FVec Ideal S512x1024 .bf16) (p : Fin 1024) (q : Fin 512) :
    matmul dot_S1024x1024_S512x1024_S1024x512_1_1_0_0_n_n none l r (constant S1024x512 .f32 0x00000000#32) (ix2 p q)
      = ∑ k : Fin 1024, l (ix2 p k) * r (ix2 q k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_cross_0 _ _
    | ⟨1, _⟩ => exact (lhs_cross_1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_cross_0 _ _
    | ⟨1, _⟩ => exact (rhs_cross_1 _ _).trans hk)
  rw [el, er]

/-! ## The lane reduction as a sum over the feature axis -/

/-- The lane sum of a [1024,1024] block from zero, at row `p`: the sum over `k` of the block at `(p, k)`. -/
theorem row_sum_apply (y : FVec Ideal S1024x1024 .f32) (hφ : FKind.Formats .f32)
    (hacc : (0x00000000#32 : BitVec 32) = FKind.add.neutral .f32 hφ) (p : Fin 1024) :
    multiReduction .add [1] S1024 y 0x00000000#32 reduces_S1024x1024_S1024 hφ hacc (ix1 p)
      = ∑ k : Fin 1024, y (ix2 p k) :=
  (Ideal.multiReduction_add_single y 0x00000000#32 reduces_S1024x1024_S1024 hφ hacc (ix1 p)).trans
    (Finset.sum_congr rfl fun k _ => congrArg y (funext fun a => Fin.ext (by
      match a with
      | ⟨0, _⟩ => rfl
      | ⟨1, _⟩ => rfl)))

/-! ## The stored value at an entry -/

/-- The body's stored value at `(p, q)`: `entry` of row `p`'s squared norm, centre `q`'s squared norm, their
    inner product and width `q`, all read off the loaded blocks. -/
theorem stored_apply (v0 : Vec Ideal S1024x1024 .f32) (v1 : Vec Ideal S512x1024 .f32) (v20 : Vec Ideal S1x512 .f32)
    (p : Fin 1024) (q : Fin 512) :
    k0_pay1 (F := Ideal) v0 v1 v20 (ix2 p q)
      = entry (∑ k : Fin 1024, v0 (ix2 p k) * v0 (ix2 p k)) (∑ k : Fin 1024, v1 (ix2 q k) * v1 (ix2 q k))
          (∑ k : Fin 1024, v0 (ix2 p k) * v1 (ix2 q k)) (v20 (ix2 (0 : Fin 1) q)) := by
  unfold k0_pay1 entry
  refine congrArg Ideal.exp ?_
  refine congrArg₂ (fun a b : EReal => a * b) ?_ ?_
  · -- the width: the one row spread along the rows, `0 - β`
    refine (broadcastTo_1b_ab_apply _ _ p q).trans ?_
    refine Eq.trans (?_ : _ = (0 : EReal) - v20 (ix2 (0 : Fin 1) q)) (zero_sub_eq_neg _)
    refine congrArg₂ (fun a b : EReal => a - b) Ideal.ofBits_zero_f32 ?_
    exact congrFun (shapeCast_self v20 _) _
  · refine congrArg₂ (fun a b : EReal => max a b) ?_ Ideal.ofBits_zero_f32
    refine congrArg₂ (fun a b : EReal => a - b) ?_ ?_
    · refine congrArg₂ (fun a b : EReal => a + b) ?_ ?_
      · -- the row's squared norm: lane sum, recast as a column, spread along the lanes
        refine (broadcastTo_a1_ab_apply _ _ p q).trans ?_
        refine (shapeCast_a_a1_apply _ _ p (0 : Fin 1)).trans ?_
        exact row_sum_apply (mulf v0 v0) _ _ p
      · -- the centre's squared norm: a row of ones contracted against the squares, spread along the rows
        refine (broadcastTo_1b_ab_apply _ _ p q).trans ?_
        refine (ones_matmul_apply _ _ q).trans ?_
        refine Eq.trans (?_ : _ = ∑ k : Fin 1024, (1 : EReal) * (v1 (ix2 q k) * v1 (ix2 q k))) (sum_one_mul _)
        refine Finset.sum_congr rfl fun k _ => congrArg₂ (fun a b : EReal => a * b) ?_ rfl
        exact IdealRules.sign_bit.ideal_onePat .bf16
    · -- twice the inner product
      refine congrArg₂ (fun a b : EReal => a * b) rfl ?_
      exact cross_matmul_apply _ _ p q

end Cert.Rbf.Body

end
-- ==== Proof.KernelValue.lean ====
/-
  The kernel's result array after the run is `rbf` of the three argument arrays.

  The grid has 16 × 8 points; point `(i, j)` reads rows `1024 i … 1024 i + 1023` of the batch, centres
  `512 j … 512 j + 511` with their widths, and writes block `(i, j)` of the [16384, 4096] result. What it writes
  at `(p, q)` of the block is the body's stored value of the three blocks (`stored_apply`), and a block's entry is the
  array's entry at `(1024 i + p, 512 j + q)`; the blocks tile the result, so the whole array is one function of the
  arguments. The widths reach the kernel as a [1, 4096] row (a host reshape of the [4096] argument before the launch).
-/
import proofs.«147994_j56461640073237_1_alg».proof.Proof.Gen.KernelIdeal.Value
import proofs.«147994_j56461640073237_1_alg».proof.Proof.BodyValue
import Idealize.ShloMosaic.Lib.StableHlo.Run

set_option maxRecDepth 16384

noncomputable section

open scoped BigOperators

namespace Cert.Rbf.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Rbf Cert.Rbf.Body
open Idealize.ShloMosaic.Pipeline (Dat)

variable (m : (ℓ : Loc nD τ sig) → Buf (Elt Ideal) ℓ) (ρ : Dev nD → PrngReg)

/-- The result as the kernel sees its operands: the widths as a [1, 4096] row. -/
def rbfRow (x : S16384x1024.Idx → EReal) (c : S4096x1024.Idx → EReal) (βrow : S1x4096.Idx → EReal) : S16384x4096.Idx → EReal := fun i =>
  entry (rowSq x (i 0)) (ctrSq c (i 1)) (cross x c (i 0) (i 1)) (βrow (ix2 (0 : Fin 1) (i 1)))

/-- With the row a recast of the [4096] widths, that is `rbf`. -/
theorem rbfRow_shapeCast (x : S16384x1024.Idx → EReal) (c : S4096x1024.Idx → EReal) (β : S4096.Idx → EReal) :
    rbfRow x c (shapeCast S1x4096 β shapeCasts_S4096_S1x4096) = rbf x c β := by
  funext i
  unfold rbfRow rbf
  exact congrArg (entry _ _ _) (shapeCast_a_1a_apply β shapeCasts_S4096_S1x4096 (0 : Fin 1) (i 1))

/-- The widths' row as the launch finds it: the host reshape of the argument. -/
theorem widths_row (c : Dev nD) :
    (V m c main_v0 : S1x4096.Idx → EReal) = shapeCast S1x4096 (m ((c : Thread nD τ).loc main_arg2)) shapeCasts_S4096_S1x4096 := by
  dsimp only [Gen.V, Gen.hostOps0]; after_results; rfl

theorem offsets_zero : (![0, 0] : Fin 2 → Nat) = fun _ => 0 := funext fun a => by fin_cases a <;> rfl

/-- The index maps over the 128 points: the batch window follows the result's row block, the centres' and the
    widths' windows its column block, the feature axis is whole; and the result's block indices stay in range. -/
theorem index_maps : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block of the result is some point's. -/
theorem block_of_some_point : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- Entry `(p, k)` of the batch block at point `t` is the batch array at the result entry's row. -/
theorem batch_block_read (c : Dev nD) (t : Fin cfg0.N) (p : Fin 1024) (q : Fin 512) (k : Fin 1024) :
    iblk m c 0 t (ix2 p k) = V m c main_arg0 (ix2 ((((cfg0.win 3).blk t).view.emb (ix2 p q)) 0) k) := by
  obtain ⟨e0, e1, -, -, -, -, -, -⟩ := index_maps t
  show V m c main_arg0 (((cfg0.win 0).blk t).view.emb (ix2 p k)) = _
  refine congrArg (V m c main_arg0) (funext fun a => Fin.ext ?_)
  match a with
  | ⟨0, _⟩ => show win0_0.index t (0 : Fin 2) * 1024 + 1 * p.val = win0_3.index t (0 : Fin 2) * 1024 + 1 * p.val; omega
  | ⟨1, _⟩ => show win0_0.index t (1 : Fin 2) * 1024 + 1 * k.val = k.val; omega

/-- Entry `(q, k)` of the centres' block at point `t` is the centres' array at the result entry's column. -/
theorem centre_block_read (c : Dev nD) (t : Fin cfg0.N) (p : Fin 1024) (q : Fin 512) (k : Fin 1024) :
    iblk m c 1 t (ix2 q k) = V m c main_arg1 (ix2 ((((cfg0.win 3).blk t).view.emb (ix2 p q)) 1) k) := by
  obtain ⟨-, -, e2, e3, -, -, -, -⟩ := index_maps t
  show V m c main_arg1 (((cfg0.win 1).blk t).view.emb (ix2 q k)) = _
  refine congrArg (V m c main_arg1) (funext fun a => Fin.ext ?_)
  match a with
  | ⟨0, _⟩ => show win0_1.index t (0 : Fin 2) * 512 + 1 * q.val = win0_3.index t (1 : Fin 2) * 512 + 1 * q.val; omega
  | ⟨1, _⟩ => show win0_1.index t (1 : Fin 2) * 1024 + 1 * k.val = k.val; omega

/-- Entry `(0, q)` of the widths' block at point `t` is the widths' row at the result entry's column. -/
theorem width_block_read (c : Dev nD) (t : Fin cfg0.N) (p : Fin 1024) (q : Fin 512) :
    iblk m c 2 t (ix2 (0 : Fin 1) q) = V m c main_v0 (ix2 (0 : Fin 1) ((((cfg0.win 3).blk t).view.emb (ix2 p q)) 1)) := by
  obtain ⟨-, -, -, -, e4, e5, -, -⟩ := index_maps t
  show V m c main_v0 (((cfg0.win 2).blk t).view.emb (ix2 (0 : Fin 1) q)) = _
  refine congrArg (V m c main_v0) (funext fun a => Fin.ext ?_)
  match a with
  | ⟨0, _⟩ => show win0_2.index t (0 : Fin 2) * 1 + 1 * 0 = 0; omega
  | ⟨1, _⟩ => show win0_2.index t (1 : Fin 2) * 512 + 1 * q.val = win0_3.index t (1 : Fin 2) * 512 + 1 * q.val; omega

/-- WHAT POINT `t` WRITES BACK is block `t` of `rbfRow` of the arrays as the launch finds them. -/
theorem written_back (c : Dev nD) (t : Fin cfg0.N) :
    (dats m 0 c).flushed 3 t
      = ((cfg0.win 3).blk t).view.read (Elt Ideal) (rbfRow (V m c main_arg0) (V m c main_arg1) (V m c main_v0)) := by
  rw [Value.flushed3]
  unfold out0_3
  rw [View.canon_unit_zero offsets_zero]
  simp only [View.ld_unit_zero (S := S1024x1024) offsets_zero, View.ld_unit_zero (S := S512x1024) offsets_zero,
    View.ld_unit_zero (S := S1x512) offsets_zero]
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (ix2 p q)
    = rbfRow (V m c main_arg0) (V m c main_arg1) (V m c main_v0) (((cfg0.win 3).blk t).view.emb (ix2 p q))
  refine (stored_apply (iblk m c 0 t) (iblk m c 1 t) (iblk m c 2 t) p q).trans ?_
  unfold rbfRow rowSq ctrSq cross
  refine congr (congr (congr (congrArg entry ?_) ?_) ?_) (width_block_read m c t p q)
  · exact Finset.sum_congr rfl fun k _ => congrArg₂ (fun a b : EReal => a * b) (batch_block_read m c t p q k) (batch_block_read m c t p q k)
  · exact Finset.sum_congr rfl fun k _ => congrArg₂ (fun a b : EReal => a * b) (centre_block_read m c t p q k) (centre_block_read m c t p q k)
  · exact Finset.sum_congr rfl fun k _ => congrArg₂ (fun a b : EReal => a * b) (batch_block_read m c t p q k) (centre_block_read m c t p q k)

/-- An index of the result is in point `t`'s block iff each coordinate is in the block's range on its axis. -/
theorem mem_block (t : Fin cfg0.N) (i : S16384x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- The blocks tile the result: entry `(r, n)` is in the block of the point at `(r / 1024, n / 512)`. -/
theorem blocks_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := block_of_some_point ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the run is `rbf` of the arguments as launched. -/
theorem result_array (c : Dev nD) :
    (dats m 0 c).arrAt 3 cfg0.N
      = rbf (m ((c : Thread nD τ).loc main_arg0)) (m ((c : Thread nD τ).loc main_arg1)) (m ((c : Thread nD τ).loc main_arg2)) := by
  refine ((dats m 0 c).arrAt_eq_of_cover 3 (rbfRow (V m c main_arg0) (V m c main_arg1) (V m c main_v0))
    (fun t _ => written_back m c t) blocks_cover).trans ?_
  rw [V_main_arg0, V_main_arg1, widths_row]
  exact rbfRow_shapeCast _ _ _

/-- The kernel's run, read: the result at `rbf` of the arguments, the arguments unchanged. -/
theorem run : θ_run defs (onTc (τ := τ) (main (F := Ideal))) ⟨m, fun _ => 0, ρ⟩ fun r => ∀ c : Dev nD,
      r.2.mem ((c : Thread nD τ).loc main_v1)
        = rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.Rbf.Kernel

end
-- ==== Proof.lean ====
/-
  A radial-basis layer: for a batch `x` [16384, 1024], centres `c` [4096, 1024] and widths `β` [4096], the result at
  `(r, n)` is `exp( -β[n] · max( ‖x_r‖² + ‖c_n‖² - 2 ⟨x_r, c_n⟩ , 0 ) )`, the squared distance kept in its expanded form.

  The kernel tiles the result into 16 × 8 blocks of [1024, 512]; in a block it takes the rows' squared norms by a lane
  sum, the centres' squared norms by contracting a row of ones against the squares, the inner products by one
  contraction on the feature axis, and writes `-β` as `0 - β`. The reference takes both squared norms by host sums and
  the inner products by one product against the transposed centres. On the extended reals the two agree term by term:
  `1 · y = y`, `0 - β = -β`, `0 + s = s`, a contraction is a sum over the feature axis whatever the operand layout, and a
  change of float format is the identity. No law used needs the entries finite, so the precondition is never opened.

  `RbfSpec` states the function; `RefValue` reads the reference's run as it; `BodyValue` reads the kernel body's stored
  value at an entry; `KernelValue` carries blocks to the whole array. The idealized kernel is the kernel's own text read on the
  extended reals (no operation was rewritten), so that claim is trivial.
-/
import proofs.«147994_j56461640073237_1_alg».proof.Defs
import proofs.«147994_j56461640073237_1_alg».proof.Proof.Gen.Kernel
import proofs.«147994_j56461640073237_1_alg».proof.Proof.Gen.Kernel.Skeleton
import proofs.«147994_j56461640073237_1_alg».proof.Proof.Gen.Kernel.Launch
import proofs.«147994_j56461640073237_1_alg».proof.Proof.Gen.Kernel.Points
import proofs.«147994_j56461640073237_1_alg».proof.Proof.Gen.Kernel.Frame
import proofs.«147994_j56461640073237_1_alg».proof.Proof.Gen.KernelIdeal
import proofs.«147994_j56461640073237_1_alg».proof.Proof.Gen.KernelIdeal.Skeleton
import proofs.«147994_j56461640073237_1_alg».proof.Proof.Gen.KernelIdeal.Launch
import proofs.«147994_j56461640073237_1_alg».proof.Proof.Gen.KernelIdeal.Points
import proofs.«147994_j56461640073237_1_alg».proof.Proof.Gen.KernelIdeal.Frame
import proofs.«147994_j56461640073237_1_alg».proof.Proof.Gen.ReferenceIdeal
import proofs.«147994_j56461640073237_1_alg».proof.Proof.Gen.Pre_finite_inputs
import proofs.«147994_j56461640073237_1_alg».proof.Proof.Gen.KernelIdeal.Value
import proofs.«147994_j56461640073237_1_alg».proof.Proof.Gen.ReferenceIdeal.Run
import proofs.«147994_j56461640073237_1_alg».proof.Proof.Gen.ReferenceIdeal.Read
import proofs.«147994_j56461640073237_1_alg».proof.Proof.RefValue
import proofs.«147994_j56461640073237_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at `rbf` of the (agreeing) arguments. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Rbf.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.Rbf.Reference.stage_eq_rbf,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
